-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256 : Shape := ⟨1, ![256]⟩
abbrev S256x256 : Shape := ⟨2, ![256, 256]⟩
abbrev S_ : Shape := ⟨0, ![]⟩
abbrev S1x256 : Shape := ⟨2, ![1, 256]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  dot_S262144x256_S256x256_S262144x256_1_0_0_1_n_n_wf : DotDims.WF S262144x256 S256x256 S262144x256 [1] [0] [0] [1] [] []

variable [Facts]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def fn_part1 {F : FTy → Type} [FloatOps F] (main_arg1 : FVec F S256 .f32) (main_v13 : IVec S_ 1) (main_v15 : FVec F S262144x256 .f32) (main_v16 : FVec F S256 .f32) : IVec S_ 1 :=
  let main_v17 : FVec F S256 .f32 := maximumf main_arg1 main_v16
  let main_v18 : FVec F S1x256 .f32 := broadcastInDim S1x256 ![1] bcast_S256_S1x256_1 main_v17
  let main_v19 : FVec F S262144x256 .f32 := broadcastInDim S262144x256 ![0, 1] bcast_S1x256_S262144x256_0_1 main_v18
  let main_v20 : FVec F S262144x256 .f32 := addf main_v15 main_v19
  let main_cst_5 : FVec F S_ .f32 := constant S_ .f32 0x00000000#32
  let main_v21 : FVec F S262144x256 .f32 := broadcastInDim S262144x256 ![] bcast_S_S262144x256 main_cst_5
  let main_v22 : IVec S262144x256 1 := cmpf .ogt main_v20 main_v21
  let main_c_6 : IVec S_ 1 := constantI S_ 1 1#1
  let main_v23 : IVec S_ 1 := (fun x v => Host.reduce IntOp.andi x v reducesTo_S262144x256_S_d0_1 h_S_) main_v22 main_c_6
  let main_v24 : IVec S_ 1 := andi main_v13 main_v23
  main_v24

def fn {F : FTy → Type} [FloatOps F] (main_arg0 : FVec F S262144x256 .f32) (main_arg1 : FVec F S256 .f32) (main_arg2 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S262144x256 .f32 := mulf main_arg0 main_arg0
  let main_v15 : FVec F S262144x256 .f32 := (fun l r => Host.dotGeneral dot_S262144x256_S256x256_S262144x256_1_0_0_1_n_n none l r) main_v14 main_arg2
  let main_cst_4 : FVec F S_ .f32 := constant S_ .f32 0x358637BD#32
  let main_v16 : FVec F S256 .f32 := broadcastInDim S256 ![] bcast_S_S256 main_cst_4
  fn_part1 (F := F) main_arg1 main_v13 main_v15 main_v16
-- ==== Kernel.lean ====
abbrev S262144x256 : Shape := ⟨2, ![262144, 256]⟩
abbrev S256 : Shape := ⟨1, ![256]⟩
abbrev S256x256 : Shape := ⟨2, ![256, 256]⟩
abbrev S_ : Shape := ⟨0, ![]⟩
abbrev S1x256 : Shape := ⟨2, ![1, 256]⟩
abbrev S8192x256 : Shape := ⟨2, ![8192, 256]⟩
abbrev S2048x256 : Shape := ⟨2, ![2048, 256]⟩

abbrev nBuf : Space → Nat
  | .hbm => 8
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S256, .f32⟩
  | .hbm, ⟨2, _⟩ => ⟨S256x256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S262144x256, .f32⟩
  | .local _ .vmem, ⟨0, _⟩ => ⟨S8192x256, .f32⟩
  | .local _ .vmem, ⟨1, _⟩ => ⟨S8192x256, .f32⟩
  | .local _ .vmem, ⟨2, _⟩ => ⟨S1x256, .f32⟩
  | .local _ .vmem, ⟨3, _⟩ => ⟨S256x256, .f32⟩
  | .local _ .vmem, ⟨4, _⟩ => ⟨S8192x256, .f32⟩
  | .local _ .vmem, ⟨5, _⟩ => ⟨S8192x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v4 : BitVec 32 := Scalar.muli arg5 c2048_i32
  v4
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v4 : BitVec 32 := Scalar.muli arg5 c2048_i32
  let v5 : BitVec 32 := v4
  let v6 : Index := Scalar.indexCast v5
  let c0_4 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  shapeCasts_S256_S1x256 : S256.ShapeCasts S1x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S2048x256 : 0 < S2048x256.numel
  broadcasts_S1x256_S2048x256 : S1x256.Broadcasts S2048x256
  dot_S2048x256_S256x256_S2048x256_1_0_0_1_n_n_wf : DotDims.WF S2048x256 S256x256 S2048x256 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S262144x256.size a
  hwx0_3 : ∀ i : grid0.Coords, EltTy.bits .f32 = 32 ∨ (Rect.block (s := S262144x256) S8192x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S256 : Shape := ⟨1, ![256]⟩
abbrev S256x256 : Shape := ⟨2, ![256, 256]⟩
abbrev S_ : Shape := ⟨0, ![]⟩
abbrev S1x256 : Shape := ⟨2, ![1, 256]⟩

abbrev nBuf : Space → Nat
  | .hbm => 13
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256, .f32⟩
  | .hbm, ⟨2, _⟩ => ⟨S256x256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S262144x256, .f32⟩
  | .hbm, ⟨7, _⟩ => ⟨S262144x256, .f32⟩
  | .hbm, ⟨8, _⟩ => ⟨S1x256, .f32⟩
  | .hbm, ⟨9, _⟩ => ⟨S262144x256, .f32⟩
  | .hbm, ⟨10, _⟩ => ⟨S262144x256, .f32⟩
  | .hbm, ⟨11, _⟩ => ⟨S262144x256, .f32⟩
  | .hbm, ⟨12, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Law.lean ====
/-
  The one law that joins the two programs.  The kernel multiplies by the reciprocal square root of the
  normalisation pool, the reference divides by its square root.  On the extended reals the two agree
  wherever the pool is positive: at a positive real `n` both are `x · (√n)⁻¹`, and at `+∞` both are
  `x · 0`.  (At a pool that is zero or negative they differ, which is why the precondition asks for a
  positive pool.)
-/
import Idealize.ShloMosaic.PureOps.Ideal

namespace Cert.Gdn

open Idealize.ShloMosaic

/-- `x · rsqrt n = x / √n` on the extended reals, for every `x` and every positive `n`. -/
theorem mul_rsqrt_eq_div_sqrt (x n : EReal) (hn : 0 < n) :
    x * Ideal.rsqrt n = Ideal.div x (Ideal.sqrt n) := by
  induction n using EReal.rec with
  | bot => exact absurd hn (by simp)
  | top =>
    rw [Ideal.rsqrt_top, Ideal.sqrt_top, Ideal.div, if_neg (by simp), EReal.inv_top]
  | coe r =>
    have hr : 0 < r := by exact_mod_cast hn
    have hs : 0 < Real.sqrt r := Real.sqrt_pos.2 hr
    have hs' : ((Real.sqrt r : ℝ) : EReal) ≠ 0 := by exact_mod_cast hs.ne'
    rw [Ideal.rsqrt_coe, Ideal.sqrt_coe, if_neg (not_lt.2 hr.le), if_neg hr.ne', if_neg (not_lt.2 hr.le),
      Ideal.div, if_neg hs', EReal.coe_inv]

end Cert.Gdn
-- ==== Proof.Spec.lean ====
/-
  The normalisation both programs compute, over an array of `n` rows and 256 columns.

  The pool of entry `(r, j)` is `∑ k, x[r,k]² · γ[k,j] + b[j]`: it depends on row `r` of `x` only.  The kernel
  multiplies `x[r,j]` by the reciprocal square root of the pool (`gdnMul`), the reference divides `x[r,j]` by its
  square root (`gdnDiv`); where every pool is positive the two arrays are equal (`gdnMul_eq_gdnDiv`).

  Because an entry's pool reads its own row only, the normalisation commutes with every selection of rows:
  normalising a slab of rows is the slab of the normalised array (`gdnMul_rows`).  That is what lets a grid of row
  tiles, each walked in row chunks, be read as one function of the whole array.
-/
import Idealize.ShloMosaic.Lib.ValueIdx
import proofs.«430554_j13211319403219_3_alg».proof.Proof.Law

open scoped BigOperators

noncomputable section

namespace Cert.Gdn

open Idealize.ShloMosaic Idealize.ShloMosaic.ValueIdx

/-- The pool of column `j` from one row's entries: `∑ k, row[k]² · γ[k,j] + b`. -/
def pool (row : Fin 256 → EReal) (γ : (⟨2, ![256, 256]⟩ : Shape).Idx → EReal) (b : EReal) (j : Fin 256) : EReal :=
  (∑ k : Fin 256, row k * row k * γ (ix2 k j)) + b

/-- Row `r` of an array with 256 columns. -/
def rowOf {n : Nat} (x : (⟨2, ![n, 256]⟩ : Shape).Idx → EReal) (r : Fin n) : Fin 256 → EReal := fun k => x (ix2 r k)

/-- The pool of entry `i` of the array `x`. -/
def poolAt {n : Nat} (x : (⟨2, ![n, 256]⟩ : Shape).Idx → EReal) (γ : (⟨2, ![256, 256]⟩ : Shape).Idx → EReal)
    (b : Fin 256 → EReal) (i : (⟨2, ![n, 256]⟩ : Shape).Idx) : EReal :=
  pool (rowOf x (i 0)) γ (b (i 1)) (i 1)

/-- The kernel's form: each entry times the reciprocal square root of its pool. -/
def gdnMul {n : Nat} (x : (⟨2, ![n, 256]⟩ : Shape).Idx → EReal) (γ : (⟨2, ![256, 256]⟩ : Shape).Idx → EReal)
    (b : Fin 256 → EReal) : (⟨2, ![n, 256]⟩ : Shape).Idx → EReal :=
  fun i => x i * Ideal.rsqrt (poolAt x γ b i)

/-- The reference's form: each entry divided by the square root of its pool. -/
def gdnDiv {n : Nat} (x : (⟨2, ![n, 256]⟩ : Shape).Idx → EReal) (γ : (⟨2, ![256, 256]⟩ : Shape).Idx → EReal)
    (b : Fin 256 → EReal) : (⟨2, ![n, 256]⟩ : Shape).Idx → EReal :=
  fun i => Ideal.div (x i) (Ideal.sqrt (poolAt x γ b i))

/-- Where every pool is positive the two forms are one array. -/
theorem gdnMul_eq_gdnDiv {n : Nat} (x : (⟨2, ![n, 256]⟩ : Shape).Idx → EReal) (γ : (⟨2, ![256, 256]⟩ : Shape).Idx → EReal)
    (b : Fin 256 → EReal) (hpos : ∀ i, 0 < poolAt x γ b i) : gdnMul x γ b = gdnDiv x γ b :=
  funext fun i => mul_rsqrt_eq_div_sqrt (x i) (poolAt x γ b i) (hpos i)

/-- A selection of rows `e` (it sends entries of one row to entries of one row, and keeps the column) commutes with the
    pool: the pool of the selected rows at `z` is the array's pool at `e z`. -/
theorem poolAt_rows {n n' : Nat} (x : (⟨2, ![n, 256]⟩ : Shape).Idx → EReal) (γ : (⟨2, ![256, 256]⟩ : Shape).Idx → EReal)
    (b : Fin 256 → EReal) (e : (⟨2, ![n', 256]⟩ : Shape).Idx → (⟨2, ![n, 256]⟩ : Shape).Idx)
    (hrow : ∀ z z', (z 0).val = (z' 0).val → (e z 0).val = (e z' 0).val) (hcol : ∀ z, (e z 1).val = (z 1).val)
    (z : (⟨2, ![n', 256]⟩ : Shape).Idx) :
    poolAt (fun z' => x (e z')) γ b z = poolAt x γ b (e z) := by
  have h1 : e z 1 = z 1 := Fin.ext (hcol z)
  have hr : rowOf (fun z' => x (e z')) (z 0) = rowOf x (e z 0) := by
    funext k
    show x (e (ix2 (z 0) k)) = x (ix2 (e z 0) k)
    refine congrArg x ?_
    rw [eq_ix2 (e (ix2 (z 0) k))]
    have a0 : e (ix2 (z 0) k) 0 = e z 0 := Fin.ext (hrow _ _ rfl)
    have a1 : e (ix2 (z 0) k) 1 = k := Fin.ext (hcol _)
    rw [a0, a1]
    rfl
  unfold poolAt
  rw [hr, h1]

/-- So the normalisation commutes with every selection of rows. -/
theorem gdnMul_rows {n n' : Nat} (x : (⟨2, ![n, 256]⟩ : Shape).Idx → EReal) (γ : (⟨2, ![256, 256]⟩ : Shape).Idx → EReal)
    (b : Fin 256 → EReal) (e : (⟨2, ![n', 256]⟩ : Shape).Idx → (⟨2, ![n, 256]⟩ : Shape).Idx)
    (hrow : ∀ z z', (z 0).val = (z' 0).val → (e z 0).val = (e z' 0).val) (hcol : ∀ z, (e z 1).val = (z 1).val)
    (z : (⟨2, ![n', 256]⟩ : Shape).Idx) :
    gdnMul (fun z' => x (e z')) γ b z = gdnMul x γ b (e z) := by
  unfold gdnMul
  rw [poolAt_rows x γ b e hrow hcol z]

end Cert.Gdn

end
-- ==== Proof.Payload.lean ====
/-
  One chunk of the kernel's body, read index by index on the extended reals.

  The body's stored value for a chunk of 2048 rows `v`, with the resident 256×256 matrix `g` and the resident
  1×256 bias row `b`, is `v · rsqrt ((v·v) ⋅ g + b)`: the matrix product into a zero accumulator is the plain sum over the
  contracted column, the bias row is broadcast down the rows, and the rest is entry by entry.  So the stored chunk is the
  normalisation `gdnMul` of the chunk's own rows.
-/
import proofs.«430554_j13211319403219_3_alg».proof.Proof.Gen.KernelIdeal.Skeleton
import proofs.«430554_j13211319403219_3_alg».proof.Proof.Spec
import Idealize.ShloMosaic.Lib.Pipeline.Value
import Idealize.ShloMosaic.Lib.ValueIdx
import Idealize.ShloMosaic.PureOps.Ideal.Laws

open scoped BigOperators

noncomputable section

namespace Cert.KernelIdeal.Pay

open Cert.KernelIdeal Cert.KernelIdeal.Gen Idealize.ShloMosaic Idealize.ShloMosaic.ValueIdx Cert.Gdn

/-! The operand indices of the chunk's matrix product: at output entry `(r, j)` and contracted index `k` the left
    operand is read at `(r, k)` and the right at `(k, j)`. -/

theorem lhs_dot_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_dot_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_dot_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_dot_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The chunk's matrix product into the zero accumulator, at entry `z`: the sum over the contracted column `k` of the
    left operand at `(z₀, k)` times the right operand at `(k, z₁)`. -/
theorem matmul_chunk (a : FVec Ideal S2048x256 .f32) (g : FVec Ideal S256x256 .f32) (z : S2048x256.Idx) :
    FloatOps.matmul dot_S2048x256_S256x256_S2048x256_1_0_0_1_n_n (some .fp32) a g (constant S2048x256 .f32 0x00000000#32) z
      = ∑ k : Fin 256, a (ix2 (z 0) k) * g (ix2 k (z 1)) := by
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx z ((ValueIdx.contrEquiv1 dot_S2048x256_S256x256_S2048x256_1_0_0_1_n_n 256 rfl rfl).symm k) = ix2 (z 0) k := funext fun a => Fin.ext (by
    match a with
    | ⟨0, _⟩ => exact lhs_dot_0 _ _
    | ⟨1, _⟩ => exact (lhs_dot_1 _ _).trans hk)
  have er : dot_S2048x256_S256x256_S2048x256_1_0_0_1_n_n.rhsIdx z ((ValueIdx.contrEquiv1 dot_S2048x256_S256x256_S2048x256_1_0_0_1_n_n 256 rfl rfl).symm k) = ix2 k (z 1) := funext fun a => Fin.ext (by
    match a with
    | ⟨0, _⟩ => exact (rhs_dot_0 _ _).trans hk
    | ⟨1, _⟩ => exact rhs_dot_1 _ _)
  rw [el, er]
  rfl

/-- The bias row broadcast down the chunk's rows, at entry `z`: the row's entry of column `z₁`. -/
theorem bias_chunk (b : FVec Ideal S1x256 .f32) (z : S2048x256.Idx) :
    broadcastTo S2048x256 (shapeCast S1x256 b shapeCasts_S1x256_S1x256) broadcasts_S1x256_S2048x256 z
      = b (ix2 (0 : Fin 1) (z 1)) := by
  rw [shapeCast_self]
  exact broadcastTo_apply b broadcasts_S1x256_S2048x256 z (ix2 (0 : Fin 1) (z 1)) (fun a => by
    match a with
    | ⟨0, _⟩ => show (0 : Nat) = if (1 : Nat) = 1 then 0 else (z 0).val; rw [if_pos rfl]
    | ⟨1, _⟩ => show (z 1).val = if (256 : Nat) = 1 then 0 else (z 1).val; rw [if_neg (by decide)])

/-- THE CHUNK'S STORED VALUE is the normalisation of the chunk's own rows. -/
theorem pay_eq (g : Vec Ideal S256x256 .f32) (b : Vec Ideal S1x256 .f32) (v : Vec Ideal S2048x256 .f32) :
    k0_pay1 (F := Ideal) g b v = gdnMul v g (fun j => b (ix2 (0 : Fin 1) j)) := by
  funext z
  unfold k0_pay1
  show v z * Ideal.rsqrt ((FloatOps.matmul (F := Ideal) dot_S2048x256_S256x256_S2048x256_1_0_0_1_n_n (some .fp32) (mulf (F := Ideal) v v) g (constant S2048x256 .f32 0x00000000#32) z : EReal)
      + (broadcastTo S2048x256 (shapeCast S1x256 b shapeCasts_S1x256_S1x256) broadcasts_S1x256_S2048x256 z : EReal)) = _
  rw [matmul_chunk, bias_chunk]
  rfl

end Cert.KernelIdeal.Pay

end
-- ==== Proof.Pieces.lean ====
/-
  What one grid point's body leaves in its output tile.

  The body walks its tile of 8192 rows in four chunks of 2048 rows; chunk `k` stores, at rows `2048·k …`, the
  normalisation of the rows it loaded from the same place of the input tile.  Since an entry's pool reads its own row
  only, each stored chunk is that slab of the normalisation of the WHOLE input tile; the four slabs tile the output, so the
  output tile is the normalisation of the input tile — one function of the tile, the chunking gone.
-/
import proofs.«430554_j13211319403219_3_alg».proof.Proof.Gen.KernelIdeal.Frame
import proofs.«430554_j13211319403219_3_alg».proof.Proof.Payload

set_option maxRecDepth 16384

noncomputable section

namespace Cert.KernelIdeal.Blk

open Cert.KernelIdeal Cert.KernelIdeal.Gen Idealize.ShloMosaic Idealize.ShloMosaic.TcCoe Idealize.SL.Sem
open Idealize.ShloMosaic.ValueIdx Cert.Gdn

/-- The bias row of a 1×256 tile, by column. -/
abbrev biasRow (b : Vec Ideal S1x256 .f32) : Fin 256 → EReal := fun j => b (ix2 (0 : Fin 1) j)

/-- Trip `k` of the body's loop makes ONE store: at the chunk's rectangle (rows from `2048·k`, all columns), the body's
    stored value of the chunk it loaded through the same rectangle. -/
theorem trip_piece (𝒱 : Variants) (c : Dev nD) (bd : Option 𝒱.V) (i : grid0.Coords) (arg1 : Memref sig .tc .vmem S8192x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S8192x256 .f32) (harg4 : arg4.IsWhole) (v0 : Vec Ideal S256x256 .f32) (v1 : Vec Ideal S1x256 .f32) (X_arg1 : BufTy.Contents (Elt Ideal) arg1.view.ty) (k : Fin k0_t1_loop.trips) :
    tripL_k0_t1 (F := Ideal) 𝒱 c bd i arg1 harg1 arg2 harg2 arg3 harg3 arg4 harg4 v0 v1 X_arg1 k
      = [⟨Rect.unit (s := S8192x256) (k0_off1 k) S2048x256.size (k0_off1_inb k),
          k0_pay1 v0 v1 (View.readAt (Elt Ideal) arg1.view (Rect.unit (s := S8192x256) (k0_off1 k) S2048x256.size (k0_off1_inb k)).toLoadRect X_arg1)⟩] := by
  unfold tripL_k0_t1 trip_k0_t1
  rfl

/-- A chunk's rectangle selects rows: it sends entries of one row to entries of one row and keeps the column (its
    column offset is zero). -/
theorem chunk_rows (k : Fin k0_t1_loop.trips) (z z' : S2048x256.Idx) (h : (z 0).val = (z' 0).val) :
    ((Rect.unit (s := S8192x256) (k0_off1 k) S2048x256.size (k0_off1_inb k)).emb z 0).val
      = ((Rect.unit (s := S8192x256) (k0_off1 k) S2048x256.size (k0_off1_inb k)).emb z' 0).val := by
  show k0_off1 k 0 + 1 * (z 0).val = k0_off1 k 0 + 1 * (z' 0).val
  rw [h]

theorem chunk_col (k : Fin k0_t1_loop.trips) (z : S2048x256.Idx) :
    ((Rect.unit (s := S8192x256) (k0_off1 k) S2048x256.size (k0_off1_inb k)).emb z 1).val = (z 1).val := by
  show 0 + 1 * (z 1).val = (z 1).val
  omega

/-- EVERY PIECE the trips before `n` stored is a slab of the normalisation of the whole input tile. -/
theorem pieces_ok (𝒱 : Variants) (c : Dev nD) (bd : Option 𝒱.V) (i : grid0.Coords) (arg1 : Memref sig .tc .vmem S8192x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S8192x256 .f32) (harg4 : arg4.IsWhole)
    (x0 : Vec Ideal S8192x256 .f32) (x1 : Vec Ideal S1x256 .f32) (x2 : Vec Ideal S256x256 .f32) :
    ∀ n, n ≤ k0_t1_loop.trips →
      ∀ p ∈ pb_k0_t1 (F := Ideal) 𝒱 c bd i arg1 harg1 arg2 harg2 arg3 harg3 arg4 harg4 x2 x1 (harg1.unread x0) n,
        ∀ z : p.1.shape.Idx, p.2 z = gdnMul x0 x2 (biasRow x1) (p.1.emb z)
  | 0, _ => fun p hp => by
      rw [pb_k0_t1.eq_1] at hp
      exact absurd hp List.not_mem_nil
  | n + 1, hn => fun p hp => by
      have hk : n < k0_t1_loop.trips := hn
      have e := pb_k0_t1_succ (F := Ideal) 𝒱 c bd i arg1 harg1 arg2 harg2 arg3 harg3 arg4 harg4 x2 x1 (harg1.unread x0) ⟨n, hk⟩
      rw [show n + 1 = (⟨n, hk⟩ : Fin k0_t1_loop.trips).val + 1 from rfl, e, trip_piece, List.mem_append, List.mem_singleton] at hp
      rcases hp with rfl | hp
      · intro z
        show k0_pay1 x2 x1 (View.readAt (Elt Ideal) arg1.view (Rect.unit (s := S8192x256) (k0_off1 ⟨n, hk⟩) S2048x256.size (k0_off1_inb ⟨n, hk⟩)).toLoadRect (harg1.unread x0)) z = _
        rw [View.readAt_eq_ld, harg1.read_unread, Pay.pay_eq]
        exact gdnMul_rows x0 x2 (biasRow x1) (Rect.unit (s := S8192x256) (k0_off1 ⟨n, hk⟩) S2048x256.size (k0_off1_inb ⟨n, hk⟩)).emb
          (chunk_rows ⟨n, hk⟩) (chunk_col ⟨n, hk⟩) z
      · exact pieces_ok 𝒱 c bd i arg1 harg1 arg2 harg2 arg3 harg3 arg4 harg4 x0 x1 x2 n (Nat.le_of_succ_le hn) p hp

theorem hz : (![0, 0] : Fin 2 → Nat) = fun _ => 0 := funext fun a => by fin_cases a <;> rfl

/-- The pieces the whole body's run found are the loop's, over the resident matrix and bias row as loaded whole. -/
theorem run_pieces (c : Dev nD) (i : grid0.Coords) (arg1 : Memref sig .tc .vmem S8192x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S8192x256 .f32) (harg4 : arg4.IsWhole)
    (x0 : Vec Ideal S8192x256 .f32) (x1 : Vec Ideal S1x256 .f32) (x2 : Vec Ideal S256x256 .f32) :
    (kernelRun0_A (F := Ideal) c i arg1 harg1 arg2 harg2 arg3 harg3 arg4 harg4 x0 x1 x2).1
      = pb_k0_t1 (F := Ideal) Variants.none c none i arg1 harg1 arg2 harg2 arg3 harg3 arg4 harg4 x2 x1 (harg1.unread x0) k0_t1_loop.trips := by
  unfold kernelRun0_A
  dsimp only
  rw [View.readAt_eq_ld, View.readAt_eq_ld, harg3.read_unread, harg2.read_unread,
    View.ld_unit_zero (S := S256x256) hz, View.ld_unit_zero (S := S1x256) hz]

/-- THE OUTPUT TILE after the body: the normalisation of the input tile `x0` with the resident matrix `x2` and bias
    row `x1`. -/
theorem out_eq (c : Dev nD) (i : grid0.Coords) (arg1 : Memref sig .tc .vmem S8192x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S8192x256 .f32) (harg4 : arg4.IsWhole)
    (x0 : Vec Ideal S8192x256 .f32) (x1 : Vec Ideal S1x256 .f32) (x2 : Vec Ideal S256x256 .f32) :
    out0_A_3 (F := Ideal) c i arg1 harg1 arg2 harg2 arg3 harg3 arg4 harg4 x0 x1 x2 = gdnMul x0 x2 (biasRow x1) := by
  funext y
  unfold out0_A_3
  refine View.read_writes_apply_of_pieces _ _ (gdnMul x0 x2 (biasRow x1)) _ ?_ y
    (cover0_A_3 c i arg1 harg1 arg2 harg2 arg3 harg3 arg4 harg4 x0 x1 x2 y)
  rw [run_pieces]
  exact pieces_ok Variants.none c none i arg1 harg1 arg2 harg2 arg3 harg3 arg4 harg4 x0 x1 x2 _ le_rfl

end Cert.KernelIdeal.Blk

end
-- ==== Proof.Clamp.lean ====
/-
  The bias both programs add to the pool: the input bias, entry by entry, clamped from below by the lower bound both sources
  spell as `1e-6` (the same binary32 word in both printed programs, so it is never evaluated here).
-/
import proofs.«430554_j13211319403219_3_alg».proof.Proof.Spec

noncomputable section

namespace Cert.Gdn

open Idealize.ShloMosaic Idealize.ShloMosaic.ValueIdx

/-- The clamped bias, by column: `max β[j] β_min`. -/
def clampRow (β : (⟨1, ![256]⟩ : Shape).Idx → EReal) : Fin 256 → EReal :=
  fun j => FloatOps.maximumf (F := Ideal) (φ := .f32) (β (ix1 j)) (FloatOps.ofBits (F := Ideal) .f32 0x358637BD#32)

end Cert.Gdn

end
-- ==== Proof.KernelValue.lean ====
/-
  The kernel's result array, as one function of the argument arrays.

  Grid point `t` stages rows `8192·t …` of `x` (all 256 columns), the whole matrix `γ` and the whole clamped bias row, and
  writes back, to the same rows of the result, the normalisation of its tile of `x`.  An entry's pool reads its own row
  only, so that tile IS the tile of the normalisation of the whole array; the 32 tiles cover the array's 262144 rows (row
  `r` lies in tile `r / 8192`), so the result array is the kernel's form `gdnMul` of the whole array `x`, with `γ` and
  the clamped bias.
-/
import proofs.«430554_j13211319403219_3_alg».proof.Proof.Gen.KernelIdeal.Value
import proofs.«430554_j13211319403219_3_alg».proof.Proof.Pieces
import proofs.«430554_j13211319403219_3_alg».proof.Proof.Clamp
import Idealize.ShloMosaic.Lib.StableHlo.Run

set_option maxRecDepth 16384

noncomputable section

namespace Cert.KernelIdeal.Arr

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Gdn Cert.KernelIdeal.Blk

variable (m : (ℓ : Loc nD τ sig) → Buf (Elt Ideal) ℓ) (ρ : Dev nD → PrngReg)

/-- The arrays the region finds, at their literal types: `x`, `γ`, and the clamped bias as a 1×256 row. -/
abbrev xArr (c : Dev nD) : Vec Ideal S262144x256 .f32 := V m c main_arg0
abbrev gArr (c : Dev nD) : Vec Ideal S256x256 .f32 := V m c main_arg2
abbrev bArr (c : Dev nD) : Vec Ideal S1x256 .f32 := V m c main_v2

/-- The result array: the kernel's form of the normalisation of the whole array. -/
def result (c : Dev nD) : Vec Ideal S262144x256 .f32 := gdnMul (xArr m c) (gArr m c) (biasRow (bArr m c))

/-- Where each window's block sits at grid point `t`, decided over the 32 points: the tile of `x` and the result's tile at
    block row `t`, block column 0; the matrix's and the bias row's one block at the origin. -/
theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The staged matrix is the whole matrix, -/
theorem gblk_eq (c : Dev nD) (t : Fin cfg0.N) : (iblk m c 2 t : Vec Ideal S256x256 .f32) = gArr m c := by
  obtain ⟨-, -, -, -, e4, e5, -, -⟩ := where_blocks t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- and the staged bias row the whole row. -/
theorem bblk_eq (c : Dev nD) (t : Fin cfg0.N) : (iblk m c 1 t : Vec Ideal S1x256 .f32) = bArr m c := by
  obtain ⟨-, -, e2, e3, -, -, -, -⟩ := where_blocks t
  funext y
  show V m c main_v2 (((cfg0.win 1).blk t).view.emb y) = V m c main_v2 y
  refine congrArg (V m c main_v2) (funext fun a => Fin.ext ?_)
  match a with
  | ⟨0, _⟩ => show win0_1.index t (0 : Fin 2) * 1 + 1 * (y 0).val = (y 0).val; omega
  | ⟨1, _⟩ => show win0_1.index t (1 : Fin 2) * 256 + 1 * (y 1).val = (y 1).val; omega

/-- The tile of `x` at point `t` is `x` read through the result's tile at `t`: the two windows move together. -/
theorem xblk_eq (c : Dev nD) (t : Fin cfg0.N) :
    (iblk m c 0 t : Vec Ideal S8192x256 .f32) = fun y => xArr m c (((cfg0.win 3).blk t).view.emb y) := by
  obtain ⟨e0, e1, -, -, -, -, e6, e7⟩ := where_blocks t
  funext y
  show V m c main_arg0 (((cfg0.win 0).blk t).view.emb y) = V m c main_arg0 (((cfg0.win 3).blk t).view.emb y)
  refine congrArg (V m c main_arg0) (funext fun a => Fin.ext ?_)
  match a with
  | ⟨0, _⟩ => show win0_0.index t (0 : Fin 2) * 8192 + 1 * (y 0).val = win0_3.index t (0 : Fin 2) * 8192 + 1 * (y 0).val; omega
  | ⟨1, _⟩ => show win0_0.index t (1 : Fin 2) * 256 + 1 * (y 1).val = win0_3.index t (1 : Fin 2) * 256 + 1 * (y 1).val; omega

/-- The result's tile selects rows: entries of one row go to entries of one row, -/
theorem tile_rows (t : Fin cfg0.N) (z z' : S8192x256.Idx) (h : (z 0).val = (z' 0).val) :
    (((cfg0.win 3).blk t).view.emb z 0).val = (((cfg0.win 3).blk t).view.emb z' 0).val := by
  show win0_3.index t (0 : Fin 2) * 8192 + 1 * (z 0).val = win0_3.index t (0 : Fin 2) * 8192 + 1 * (z' 0).val
  rw [h]

/-- and the column is kept. -/
theorem tile_col (t : Fin cfg0.N) (z : S8192x256.Idx) : (((cfg0.win 3).blk t).view.emb z 1).val = (z 1).val := by
  obtain ⟨-, -, -, -, -, -, -, e7⟩ := where_blocks t
  show win0_3.index t (1 : Fin 2) * 256 + 1 * (z 1).val = (z 1).val
  omega

/-- WHAT POINT `t` WRITES BACK is tile `t` of the result. -/
theorem flushed_eq (c : Dev nD) (t : Fin cfg0.N) :
    (dats m 0 c).flushed 3 t = ((cfg0.win 3).blk t).view.read (Elt Ideal) (result m c) := by
  rw [flushed3_A, out_eq, xblk_eq, gblk_eq, bblk_eq]
  funext z
  exact gdnMul_rows (xArr m c) (gArr m c) (biasRow (bArr m c)) (fun y => ((cfg0.win 3).blk t).view.emb y)
    (tile_rows t) (tile_col t) z

/-- An index of the result lies in tile `t` exactly when its coordinates lie in the tile's ranges. -/
theorem mem_tile (t : Fin cfg0.N) (i : S262144x256.Idx) :
    i ∈ ((cfg0.win 3).blk t).view.set ↔ ∀ a : Fin 2, win0_3.index t a * S8192x256.size a ≤ (i a).val ∧ (i a).val < win0_3.index t a * S8192x256.size a + S8192x256.size a := by
  show i ∈ ((View.whole main_v3).slice (win0_3.rect t)).set ↔ _
  rw [View.set_slice_whole, Rect.mem_set_unit]
  exact Iff.rfl

/-- THE RESULT ARRAY after the run: row `r` lies in tile `r / 8192`, so the 32 tiles cover it. -/
theorem final (c : Dev nD) : (dats m 0 c).arrAt 3 cfg0.N = result m c :=
  (dats m 0 c).arrAt_eq_of_cover 3 (result m c) (fun t _ => flushed_eq m c t) fun i => by
    have hi0 : (i 0).val < 262144 := (i 0).isLt
    have hi1 : (i 1).val < 256 := (i 1).isLt
    have ht : (i 0).val / 8192 < cfg0.N := by show (i 0).val / 8192 < 32; omega
    obtain ⟨-, -, -, -, -, -, e6, e7⟩ := where_blocks ⟨(i 0).val / 8192, ht⟩
    refine ⟨⟨(i 0).val / 8192, ht⟩, flush0_3 _, ?_⟩
    rw [mem_tile]
    intro a
    match a with
    | ⟨0, _⟩ =>
      show win0_3.index ⟨(i 0).val / 8192, ht⟩ (0 : Fin 2) * 8192 ≤ (i 0).val ∧ (i 0).val < win0_3.index ⟨(i 0).val / 8192, ht⟩ (0 : Fin 2) * 8192 + 8192
      rw [e6]; show (i 0).val / 8192 * 8192 ≤ (i 0).val ∧ (i 0).val < (i 0).val / 8192 * 8192 + 8192; omega
    | ⟨1, _⟩ =>
      show win0_3.index ⟨(i 0).val / 8192, ht⟩ (1 : Fin 2) * 256 ≤ (i 1).val ∧ (i 1).val < win0_3.index ⟨(i 0).val / 8192, ht⟩ (1 : Fin 2) * 256 + 256
      rw [e7]; omega

/-- The bias row the region finds is the clamped bias, by column: the host clamps the bias entry by entry and reshapes it to
    one row. -/
theorem bias_eq (c : Dev nD) : biasRow (bArr m c) = clampRow (m ((c : Thread nD τ).loc main_arg1)) := by
  funext j
  have e : (V m c main_v2 : S1x256.Idx → EReal) = shapeCast S1x256 (maximumf (F := Ideal) (m ((c : Thread nD τ).loc main_arg1)) (broadcastInDim S256 ![] bcast_S_S256 (constant (F := Ideal) S_ .f32 0x358637BD#32))) shapeCasts_S256_S1x256 := by
    dsimp only [Gen.V, Gen.hostOps0]; after_results; rfl
  show V m c main_v2 (ix2 (0 : Fin 1) j) = _
  rw [e, shapeCast_apply _ shapeCasts_S256_S1x256 (ix2 (0 : Fin 1) j) (ix1 j) (by
    rw [Shape.rowMajor_val_one, Shape.rowMajor_val_two]
    show j.val = 0 * 256 + j.val
    omega)]
  rfl

/-- THE RUN, READ: the result array is the kernel's form of the normalisation of the argument arrays, which end
    unchanged. -/
theorem run : θ_run defs (onTc (τ := τ) (main (F := Ideal))) ⟨m, fun _ => 0, ρ⟩ fun r => ∀ c : Dev nD,
      r.2.mem ((c : Thread nD τ).loc main_v3)
        = gdnMul (m ((c : Thread nD τ).loc main_arg0)) (m ((c : Thread nD τ).loc main_arg2)) (clampRow (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).1, final m c]
      unfold result
      rw [bias_eq]
      show gdnMul (V m c main_arg0) (V m c main_arg2) _ = _
      rw [V_main_arg0, V_main_arg2], (h c).2⟩)
    (run_blocks m ρ)

end Cert.KernelIdeal.Arr

end
-- ==== Proof.RefValue.lean ====
/-
  The reference, read index by index on the extended reals.

  Its pool at entry `i = (r, j)` is the host matrix product of `x·x` with `γ`, a plain sum over the contracted column at
  the ideal values, plus the clamped bias of column `j` broadcast down the rows; its result is `x[i]` divided by the pool's
  square root: the reference's form `gdnDiv` of the whole array.
-/
import proofs.«430554_j13211319403219_3_alg».proof.Proof.Gen.ReferenceIdeal.Read
import proofs.«430554_j13211319403219_3_alg».proof.Proof.Clamp

open scoped BigOperators

noncomputable section

namespace Cert.ReferenceIdeal.RefValue

open Cert.ReferenceIdeal Cert.ReferenceIdeal.Gen Cert.ReferenceIdeal.Read Idealize.ShloMosaic Idealize.ShloMosaic.ValueIdx Cert.Gdn

/-- The left operand's index of the reference's product at entry `i`, contracted index `k`: `(i₀, k)`. -/
theorem lidx_eq (i : S262144x256.Idx) (k : Fin 256) : lidx_main_v3 i k = ix2 (i 0) k :=
  funext fun a => by match a with | ⟨0, _⟩ => rfl | ⟨1, _⟩ => rfl
/-- The right operand's: `(k, i₁)`. -/
theorem ridx_eq (i : S262144x256.Idx) (k : Fin 256) : ridx_main_v3 i k = ix2 k (i 1) :=
  funext fun a => by match a with | ⟨0, _⟩ => rfl | ⟨1, _⟩ => rfl
/-- The bias is read at the entry's column. -/
theorem bidx_eq (i : S262144x256.Idx) : idx_main_v4 (idx_main_v5 i) = ix1 (i 1) :=
  funext fun a => by match a with | ⟨0, _⟩ => rfl

/-- THE REFERENCE'S POOL at entry `i` is the pool of row `i₀` at column `i₁` with the clamped bias. -/
theorem pool_eq (x : Vec Ideal S262144x256 .f32) (β : Vec Ideal S256 .f32) (γ : Vec Ideal S256x256 .f32) (i : S262144x256.Idx) :
    val_main_v6 (F := Ideal) x β γ i = poolAt x γ (clampRow β) i := by
  rw [val_main_v6_apply, val_main_v3_apply, val_main_v5_apply, val_main_v4_apply, val_main_v1_apply, val_main_v0_apply,
    val_main_cst_apply, bidx_eq]
  simp only [val_main_v2_apply, lidx_eq, ridx_eq]
  rfl

/-- THE REFERENCE'S RESULT is the reference's form of the normalisation of the whole array. -/
theorem result_eq (x : Vec Ideal S262144x256 .f32) (β : Vec Ideal S256 .f32) (γ : Vec Ideal S256x256 .f32) :
    val_main_v8 (F := Ideal) x β γ = gdnDiv x γ (clampRow β) := by
  funext i
  rw [val_main_v8_apply, val_main_v7_apply, pool_eq]
  rfl

end Cert.ReferenceIdeal.RefValue

end
-- ==== Proof.PreDecode.lean ====
/-
  What the precondition says about the pools.

  Its last conjunct is `jnp.all(pool > 0)` with the pool spelt exactly as the reference spells it: the host product of
  `x·x` with `γ` plus the clamped bias.  A conjunction of one-bit words that is 1 has every conjunct 1; a reduction by
  `and` that is 1 had a 1 at every index; and the ordered compare `>` of two extended reals is 1 exactly when the strict
  inequality holds.  So under the precondition every entry's pool is positive.
-/
import proofs.«430554_j13211319403219_3_alg».proof.Proof.Gen.Pre_finite_inputs
import proofs.«430554_j13211319403219_3_alg».proof.Proof.RefValue
import Idealize.ShloMosaic.Lib.ReduceAll
import Idealize.ShloMosaic.PureOps.Ideal.Laws

noncomputable section

namespace Cert.PreDecode

open Idealize.ShloMosaic Idealize.ShloMosaic.ValueIdx Cert.Gdn

instance : Subsingleton Cert.Pre_finite_inputs.S_.Idx := ⟨fun _ _ => funext fun d => d.elim0⟩

/-- UNDER THE PRECONDITION EVERY POOL IS POSITIVE. -/
theorem pool_pos (x : Vec Ideal Cert.ReferenceIdeal.S262144x256 .f32) (β : Vec Ideal Cert.ReferenceIdeal.S256 .f32)
    (γ : Vec Ideal Cert.ReferenceIdeal.S256x256 .f32)
    (h : Cert.Pre_finite_inputs.fn (F := Ideal) x β γ = fun _ => 1#1) (i : Cert.ReferenceIdeal.S262144x256.Idx) :
    0 < poolAt x γ (clampRow β) i := by
  have h0 := congrFun h ix0
  dsimp only [Cert.Pre_finite_inputs.fn, Cert.Pre_finite_inputs.fn_part1] at h0
  obtain ⟨-, h1⟩ := IntOp.andi_eq_one.1 h0
  have h2 := Host.reduce_andi_all _ _ _ _ _ h1 i
  rw [cmpf_apply] at h2
  have h3 : (0 : EReal) < Cert.ReferenceIdeal.Read.val_main_v6 (F := Ideal) x β γ i := by
    have h4 : BitVec.ofBool (decide (Ideal.ofBits .f32 0x00000000#32 < Cert.ReferenceIdeal.Read.val_main_v6 (F := Ideal) x β γ i)) = 1#1 := h2
    rw [Ideal.ofBits_zero_f32] at h4
    by_contra hn
    rw [decide_eq_false hn] at h4
    exact absurd h4 (by decide)
  rwa [Cert.ReferenceIdeal.RefValue.pool_eq] at h3

end Cert.PreDecode

end
-- ==== Proof.lean ====
/-
  Generalized divisive normalization over a 262144 × 256 array: the kernel against its reference, on the extended reals.

  Both programs first clamp the bias from below, entry by entry.  The pool of entry `(r, j)` is
  `∑ k, x[r,k]² · γ[k,j] + bias[j]`.  The kernel, in 32 row tiles each walked in four row chunks, computes
  `x[r,j] · rsqrt(pool)`; the reference computes `x[r,j] / sqrt(pool)` on the whole array.  An entry's pool reads its own
  row only, so the tiling and the chunking do not show in the result (`Proof/Spec.lean`, `Proof/Pieces.lean`,
  `Proof/KernelValue.lean`); the reference's host product is the same plain sum (`Proof/RefValue.lean`); and for a
  positive pool `x · rsqrt n = x / √n` (`Proof/Law.lean`).  The precondition states that every pool is positive — the
  domain on which the reference's square root and quotient are defined — and that is all the proof uses of it
  (`Proof/PreDecode.lean`): for a negative pool the two forms differ (`x · rsqrt n` is infinite, `x / √n` is `0`),
  and for a zero pool they differ at `x = 0`.
-/
import proofs.«430554_j13211319403219_3_alg».proof.Defs
import proofs.«430554_j13211319403219_3_alg».proof.Proof.Gen.Kernel
import proofs.«430554_j13211319403219_3_alg».proof.Proof.Gen.Kernel.Skeleton
import proofs.«430554_j13211319403219_3_alg».proof.Proof.Gen.Kernel.Loops
import proofs.«430554_j13211319403219_3_alg».proof.Proof.Gen.Kernel.Launch
import proofs.«430554_j13211319403219_3_alg».proof.Proof.Gen.Kernel.Points
import proofs.«430554_j13211319403219_3_alg».proof.Proof.Gen.Kernel.Frame
import proofs.«430554_j13211319403219_3_alg».proof.Proof.Gen.KernelIdeal
import proofs.«430554_j13211319403219_3_alg».proof.Proof.Gen.KernelIdeal.Skeleton
import proofs.«430554_j13211319403219_3_alg».proof.Proof.Gen.KernelIdeal.Loops
import proofs.«430554_j13211319403219_3_alg».proof.Proof.Gen.KernelIdeal.Launch
import proofs.«430554_j13211319403219_3_alg».proof.Proof.Gen.KernelIdeal.Points
import proofs.«430554_j13211319403219_3_alg».proof.Proof.Gen.KernelIdeal.Frame
import proofs.«430554_j13211319403219_3_alg».proof.Proof.Gen.ReferenceIdeal
import proofs.«430554_j13211319403219_3_alg».proof.Proof.Gen.Pre_finite_inputs
import proofs.«430554_j13211319403219_3_alg».proof.Proof.Gen.KernelIdeal.Value
import proofs.«430554_j13211319403219_3_alg».proof.Proof.Gen.ReferenceIdeal.Run
import proofs.«430554_j13211319403219_3_alg».proof.Proof.Gen.ReferenceIdeal.Read
import proofs.«430554_j13211319403219_3_alg».proof.Proof.KernelValue
import proofs.«430554_j13211319403219_3_alg».proof.Proof.RefValue
import proofs.«430554_j13211319403219_3_alg».proof.Proof.PreDecode
import Idealize.ShloMosaic.Adequacy
import Idealize.ShloMosaic.Init

noncomputable section

namespace Cert.Proof

open Idealize.ShloMosaic Idealize.ShloMosaic.TcCoe Idealize.SL.Sem Cert.Gdn

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array is `x · rsqrt(pool)` and the reference's `x / √pool`, entry by entry,
    of arguments that agree; under the precondition every pool is positive, where the two are equal. -/
theorem algebraic : Cert.algebraic_KernelIdeal_ReferenceIdeal := by
  intro m ρ m' ρ' hpre hagree
  refine ⟨fun c => gdnMul (m ((c : Thread Cert.KernelIdeal.nD Cert.KernelIdeal.τ).loc Cert.KernelIdeal.main_arg0))
      (m ((c : Thread Cert.KernelIdeal.nD Cert.KernelIdeal.τ).loc Cert.KernelIdeal.main_arg2))
      (clampRow (m ((c : Thread Cert.KernelIdeal.nD Cert.KernelIdeal.τ).loc Cert.KernelIdeal.main_arg1))),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2]
  exact (gdnMul_eq_gdnDiv _ _ _ (fun i => Cert.PreDecode.pool_pos _ _ _ (hpre c) i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
